-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x2048 : Shape := ⟨2, ![4096, 2048]⟩
abbrev S256x2 : Shape := ⟨2, ![256, 2]⟩
abbrev S4096x1 : Shape := ⟨2, ![4096, 1]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S256x2 : S_.BroadcastsInDim S256x2 (![] : Fin 0 → Fin S256x2.rank)
  reducesTo_S256x2_S_d0_1 : S256x2.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : IVec S4096x2048 32) (main_arg2 : FVec F S256x2 .f32) (main_arg3 : FVec F S4096x1 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S256x2 .f32 := Host.absf main_arg2
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S4096x2048 : Shape := ⟨2, ![4096, 2048]⟩
abbrev S256x2 : Shape := ⟨2, ![256, 2]⟩
abbrev S4096x1 : Shape := ⟨2, ![4096, 1]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 23
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S4096x2048, .i32⟩
  | .hbm, ⟨2, _⟩ => ⟨S256x2, .f32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i1⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S4096x2048, .i32⟩
  | .hbm, ⟨12, _⟩ => ⟨S4096x2048x1, .i32⟩
  | .hbm, ⟨13, _⟩ => ⟨S4096x2048x2, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S4096x4096, .f32⟩
  | .hbm, ⟨19, _⟩ => ⟨S4096x4096, .bf16⟩
  | .hbm, ⟨20, _⟩ => ⟨S1x4096, .f32⟩
  | .hbm, ⟨21, _⟩ => ⟨S4096x4096, .f32⟩
  | .hbm, ⟨22, _⟩ => ⟨S2x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  shapeCasts_S4096x2048x2_S4096x4096 : S4096x2048x2.ShapeCasts S4096x4096
  bcast_S4096x1_S4096x4096_0_1 : S4096x1.BroadcastsInDim S4096x4096 (![0, 1] : Fin 2 → Fin S4096x4096.rank)
  bitsLt_bf16_f32 : FTy.bits .bf16 < FTy.bits .f32
  shapeCasts_S2x2048x4096_S4096x4096 : S2x2048x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  gather_S256x2_S4096x2048x1_S4096x2048x2_2_0_n_n_0_2_12_wf : GatherDims.WF S256x2 S4096x2048x1 S4096x2048x2 [2] [0] [] [0] [] 2 ![1, 2]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def gather_S256x2_S4096x2048x1_S4096x2048x2_2_0_n_n_0_2_12 : GatherDims S256x2 S4096x2048x1 S4096x2048x2 where
  offsetDims := [2]
  collapsedSliceDims := [0]
  operandBatchingDims := []
  startIndicesBatchingDims := []
  startIndexMap := [0]
  indexVectorDim := 2
  sliceSizes := ![1, 2]
  wf := gather_S256x2_S4096x2048x1_S4096x2048x2_2_0_n_n_0_2_12_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x2048 : Shape := ⟨2, ![4096, 2048]⟩
abbrev S256x2 : Shape := ⟨2, ![256, 2]⟩
abbrev S4096x1 : Shape := ⟨2, ![4096, 1]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x2048, .i32⟩
  | .hbm, ⟨2, _⟩ => ⟨S256x2, .f32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i1⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S4096x2048, .i32⟩
  | .hbm, ⟨12, _⟩ => ⟨S4096x2048x1, .i32⟩
  | .hbm, ⟨13, _⟩ => ⟨S4096x2048x2, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S2x2048x4096, .f32⟩
  | .hbm, ⟨18, _⟩ => ⟨S1x1x4096, .f32⟩
  | .hbm, ⟨19, _⟩ => ⟨S2x2048x4096, .f32⟩
  | .hbm, ⟨20, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  shapeCasts_S4096x2048x2_S4096x4096 : S4096x2048x2.ShapeCasts S4096x4096
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  gather_S256x2_S4096x2048x1_S4096x2048x2_2_0_n_n_0_2_12_wf : GatherDims.WF S256x2 S4096x2048x1 S4096x2048x2 [2] [0] [] [0] [] 2 ![1, 2]
  dot_S2x2048x4096_S4096x4096_S2x2048x4096_2_1_01_0_n_n_wf : DotDims.WF S2x2048x4096 S4096x4096 S2x2048x4096 [2] [1] [0, 1] [0] [] []

variable [Facts₀]

def gather_S256x2_S4096x2048x1_S4096x2048x2_2_0_n_n_0_2_12 : GatherDims S256x2 S4096x2048x1 S4096x2048x2 where
  offsetDims := [2]
  collapsedSliceDims := [0]
  operandBatchingDims := []
  startIndicesBatchingDims := []
  startIndexMap := [0]
  indexVectorDim := 2
  sliceSizes := ![1, 2]
  wf := gather_S256x2_S4096x2048x1_S4096x2048x2_2_0_n_n_0_2_12_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Linear.lean ====
/-
  A linear layer over the extended reals, y[b,s,o] = (Σ_q x[b,s,q] · w[o,q]) + bias[o], and the same numbers laid
  out as a [4096,4096] matrix product A·Bᵀ plus a row, whose contraction of length 4096 is cut into four stretches
  of 1024. Addition of extended reals is commutative and associative, so the sum over 4096 terms IS the sum of the
  four partial sums over 1024 terms each, whatever the terms are (no finiteness is used).

  Arrays are read at natural-number coordinates (`at2`: zero outside the extent), so that a block's row
  `I * 1024 + r` can be written without carrying its bound.
-/
import Idealize.ShloMosaic.PureOps.Ideal
import Idealize.ShloMosaic.Lib.ValueIdx

noncomputable section

open scoped BigOperators

namespace Cert.BlockedLinear

open Idealize.ShloMosaic Idealize.ShloMosaic.ValueIdx

/-- The activations [2, 2048, 4096], a square matrix [4096, 4096], a vector [4096] and a one-row matrix [1, 4096]. -/
abbrev SX : Shape := ⟨3, ![2, 2048, 4096]⟩
abbrev SW : Shape := ⟨2, ![4096, 4096]⟩
abbrev SV : Shape := ⟨1, ![4096]⟩
abbrev SR : Shape := ⟨2, ![1, 4096]⟩

/-- A rank-2 array of extended reals read at natural-number coordinates: zero outside its extent. -/
def at2 {n0 n1 : ℕ} (f : (⟨2, ![n0, n1]⟩ : Shape).Idx → EReal) (r c : ℕ) : EReal :=
  if h : r < n0 ∧ c < n1 then f (ix2 ⟨r, h.1⟩ ⟨c, h.2⟩) else 0

/-- Inside the extent it is the array. -/
theorem at2_val {n0 n1 : ℕ} (f : (⟨2, ![n0, n1]⟩ : Shape).Idx → EReal) (a : Fin n0) (b : Fin n1) :
    at2 f a.val b.val = f (ix2 a b) := by
  unfold at2
  rw [dif_pos ⟨a.isLt, b.isLt⟩]

/-- Every entry of the array is `at2` at the index's coordinates. -/
theorem at2_idx {n0 n1 : ℕ} (f : (⟨2, ![n0, n1]⟩ : Shape).Idx → EReal) (p : (⟨2, ![n0, n1]⟩ : Shape).Idx) :
    f p = at2 f (p 0).val (p 1).val := by
  rw [at2_val f (p 0) (p 1)]
  exact congrArg f (eq_ix2 p)

/-- A sum over `n * b` consecutive naturals is the sum of its `n` stretches of length `b`. -/
theorem sum_range_blocks {M : Type*} [AddCommMonoid M] (n b : ℕ) (g : ℕ → M) :
    ∑ q ∈ Finset.range (n * b), g q = ∑ k ∈ Finset.range n, ∑ j ∈ Finset.range b, g (k * b + j) := by
  induction n with
  | zero => simp
  | succ n ih => rw [Nat.succ_mul, Finset.sum_range_add, ih, Finset.sum_range_succ]

/-- The linear layer: `y[b,s,o] = (Σ_q x[b,s,q] · w[o,q]) + bias[o]`. -/
def lin (x : SX.Idx → EReal) (w : SW.Idx → EReal) (bias : SV.Idx → EReal) : SX.Idx → EReal :=
  fun p => (∑ q : Fin 4096, x (ix3 (p 0) (p 1) q) * w (ix2 (p 2) q)) + bias (ix1 (p 2))

/-- Entry (R, C) of `A·Bᵀ` plus the row: `(Σ_q A[R,q] · B[C,q]) + row[0,C]`. -/
def mat2 (a b : SW.Idx → EReal) (row : SR.Idx → EReal) (R C : ℕ) : EReal :=
  (∑ q ∈ Finset.range 4096, at2 a R q * at2 b C q) + at2 row 0 C

/-- The same as an array. -/
def mat (a b : SW.Idx → EReal) (row : SR.Idx → EReal) : SW.Idx → EReal :=
  fun p => mat2 a b row (p 0).val (p 1).val

/-- Inside the extent, the array read at natural coordinates is the entry. -/
theorem at2_mat (a b : SW.Idx → EReal) (row : SR.Idx → EReal) (R C : ℕ) (hR : R < 4096) (hC : C < 4096) :
    at2 (mat a b row) R C = mat2 a b row R C := by
  unfold at2
  rw [dif_pos ⟨hR, hC⟩]
  rfl

/-- Stretch `K` of the contraction for row `r` of row-block `I` and column `c` of column-block `J`:
    `Σ_{kk < 1024} A[I·1024 + r, K·1024 + kk] · B[J·1024 + c, K·1024 + kk]`. -/
def blockDot (a b : SW.Idx → EReal) (I J K r c : ℕ) : EReal :=
  ∑ kk ∈ Finset.range 1024, at2 a (I * 1024 + r) (K * 1024 + kk) * at2 b (J * 1024 + c) (K * 1024 + kk)

/-- The entry is the sum of its four stretches, plus the row. -/
theorem mat2_blocks (a b : SW.Idx → EReal) (row : SR.Idx → EReal) (I J r c : ℕ) :
    mat2 a b row (I * 1024 + r) (J * 1024 + c)
      = (∑ K ∈ Finset.range 4, blockDot a b I J K r c) + at2 row 0 (J * 1024 + c) := by
  unfold mat2 blockDot
  exact congrArg (· + at2 row 0 (J * 1024 + c))
    (sum_range_blocks 4 1024 fun q => at2 a (I * 1024 + r) q * at2 b (J * 1024 + c) q)

/-- The matrix form IS the linear layer, when `A` is `x` with its two leading axes merged, `B` is `w` and the row
    is the bias. -/
theorem mat2_eq_lin (x : SX.Idx → EReal) (w : SW.Idx → EReal) (bias : SV.Idx → EReal)
    (a b : SW.Idx → EReal) (row : SR.Idx → EReal)
    (ha : ∀ (i : Fin 2) (s : Fin 2048) (q : Fin 4096) (h : i.val * 2048 + s.val < 4096), a (ix2 ⟨i.val * 2048 + s.val, h⟩ q) = x (ix3 i s q))
    (hb : ∀ (o q : Fin 4096), b (ix2 o q) = w (ix2 o q))
    (hrow : ∀ o : Fin 4096, row (ix2 (0 : Fin 1) o) = bias (ix1 o))
    (i : Fin 2) (s : Fin 2048) (o : Fin 4096) :
    mat2 a b row (i.val * 2048 + s.val) o.val = lin x w bias (ix3 i s o) := by
  have hR : i.val * 2048 + s.val < 4096 := by have := i.isLt; have := s.isLt; omega
  unfold mat2 lin
  rw [Finset.sum_range]
  show (∑ q : Fin 4096, at2 a (i.val * 2048 + s.val) q.val * at2 b o.val q.val) + at2 row 0 o.val
    = (∑ q : Fin 4096, x (ix3 i s q) * w (ix2 o q)) + bias (ix1 o)
  have e : at2 row 0 o.val = row (ix2 (0 : Fin 1) o) := at2_val row (0 : Fin 1) o
  rw [e, hrow]
  refine congrArg (· + bias (ix1 o)) (Finset.sum_congr rfl fun q _ => ?_)
  rw [at2_val a ⟨i.val * 2048 + s.val, hR⟩ q, at2_val b o q, ha, hb]

end Cert.BlockedLinear

end
-- ==== Proof.RefLinear.lean ====
/-
  The reference program read at an index: jnp's einsum "bsi,oi->bso" is, entry by entry, the sum over the shared
  axis of products, and the bias is added after it — the linear layer of the dequantized weights
  (the weights' own expression, a codebook lookup scaled per row, is carried as one unopened function).
-/
import proofs.«137067_j80504866996441_1_alg».proof.Proof.Gen.ReferenceIdeal.Run
import proofs.«137067_j80504866996441_1_alg».proof.Proof.Gen.ReferenceIdeal.Read
import proofs.«137067_j80504866996441_1_alg».proof.Proof.Linear

noncomputable section

namespace Cert.ReferenceIdeal.RefValue

open Idealize.ShloMosaic Idealize.ShloMosaic.ValueIdx
open Cert.ReferenceIdeal Cert.ReferenceIdeal.Read Cert.BlockedLinear

/-- The left operand of the contraction is read at (b, s, q), -/
theorem lidx_eq (i : S2x2048x4096.Idx) (k : Fin 4096) : lidx_main_v10 i k = ix3 (i 0) (i 1) k :=
  funext fun a => by match a with | ⟨0, _⟩ => rfl | ⟨1, _⟩ => rfl | ⟨2, _⟩ => rfl
/-- the right one at (o, q), -/
theorem ridx_eq (i : S2x2048x4096.Idx) (k : Fin 4096) : ridx_main_v10 i k = ix2 (i 2) k :=
  funext fun a => by match a with | ⟨0, _⟩ => rfl | ⟨1, _⟩ => rfl
/-- and the bias at o. -/
theorem bidx_eq (i : S2x2048x4096.Idx) : idx_main_v11 (idx_main_v12 i) = ix1 (i 2) :=
  funext fun a => by match a with | ⟨0, _⟩ => rfl

/-- The reference's result is the linear layer of the activations, the dequantized weights and the bias. -/
theorem ref_eq (x0 : (⟨S2x2048x4096, .f32⟩ : BufTy).Contents (Elt Ideal)) (x1 : (⟨S4096x2048, .i32⟩ : BufTy).Contents (Elt Ideal))
    (x2 : (⟨S256x2, .f32⟩ : BufTy).Contents (Elt Ideal)) (x3 : (⟨S4096x1, .f32⟩ : BufTy).Contents (Elt Ideal))
    (x4 : (⟨S4096, .f32⟩ : BufTy).Contents (Elt Ideal)) :
    val_main_v13 (F := Ideal) x0 x1 x2 x3 x4 = lin x0 (val_main_v9 (F := Ideal) x1 x2 x3) x4 := by
  funext i
  rw [val_main_v13_apply, val_main_v10_apply, val_main_v12_apply, val_main_v11_apply, bidx_eq]
  simp only [lidx_eq, ridx_eq]
  rfl

end Cert.ReferenceIdeal.RefValue

end
-- ==== Proof.Pieces.lean ====
/-
  What one grid point's body leaves behind, case by case, for any float instance.
  The scratch accumulator after the body is `acc + a·bᵀ` of the point's two input blocks, where `acc` is the zero block
  at the first step of a contraction (k = 0) and what the point before left otherwise; at the last step (k = 3) the
  output block is that new accumulator plus the bias row, broadcast down the rows.
-/
import proofs.«137067_j80504866996441_1_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- One accumulation step: the accumulator plus the product of the two blocks (contracting their second axes). -/
abbrev step (acc : Vec F S1024x1024 .f32) (a b : Vec F S1024x1024 .bf16) : Vec F S1024x1024 .f32 := k0_pay2 acc a b

/-- The block the first step starts from: all zero. -/
abbrev zeroBlock : Vec F S1024x1024 .f32 := k0_pay1 (F := F)

/-- The output block: the accumulator plus the bias row on every row. -/
abbrev withBias (acc : Vec F S1024x1024 .f32) (b : Vec F S1x1024 .f32) : Vec F S1024x1024 .f32 := k0_pay3 acc b

/-- The first step (k = 0): the scratch is reset to zero, read back, and holds the step over the zero block. -/
theorem scratch_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = step zeroBlock x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle step (k = 1, 2): the scratch holds the step over what the point before left. -/
theorem scratch_mid (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = step xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The last step (k = 3): the scratch holds the step over what the point before left, -/
theorem scratch_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = step xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and the output block is that accumulator plus the bias row. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = withBias (step xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S1024x1024) hz,
    View.ld_unit_zero (S := S1x1024) hz, View.readCov_unit_zero (S := S1024x1024) _ hz]

end Cert.KernelIdeal.Acc

end
-- ==== Proof.Accum.lean ====
/-
  The accumulation over the grid, at the ideal instance.
  Grid point t stands for (i, j, k) = (t / 16, t / 4 % 4, t % 4): row block i of A, row block j of B, stretch k of the
  contraction. After point t the scratch holds, at (r, c), the sum of the stretches 0 … k of
  Σ_q A[i·1024 + r, q] · B[j·1024 + c, q]; this is proved by induction on t (a point with k = 0 starts from the zero
  block, any other adds its stretch to what the point before — same i and j, stretch k - 1 — left).
  At k = 3 the output block is that sum over all four stretches plus the bias row.
-/
import proofs.«137067_j80504866996441_1_alg».proof.Proof.Pieces
import proofs.«137067_j80504866996441_1_alg».proof.Proof.Linear
import Idealize.ShloMosaic.PureOps.Ideal.Laws

noncomputable section

open scoped BigOperators

namespace Cert.KernelIdeal.Acc

open Idealize.ShloMosaic Idealize.ShloMosaic.TcCoe Idealize.SL.Sem Idealize.ShloMosaic.ValueIdx
open Cert.KernelIdeal Cert.KernelIdeal.Gen Cert.BlockedLinear

/-! ## The three payloads read at an entry -/

/-- The zero block is zero everywhere. -/
theorem zeroBlock_apply (p : S1024x1024.Idx) : (zeroBlock (F := Ideal)) p = 0 := by
  unfold zeroBlock k0_pay1
  simp only [shapeCast_self]
  exact Ideal.ofBits_zero_f32

theorem lhs_dot_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_dot_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_dot_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_dot_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator, at (r, c): the sum over the shared second axis. -/
theorem blockProd_apply (a b : FVec Ideal S1024x1024 .bf16) (r c : Fin 1024) :
    FloatOps.matmul dot_S1024x1024_S1024x1024_S1024x1024_1_1_0_0_n_n none a b (constant S1024x1024 .f32 0x00000000#32) (ix2 r c)
      = ∑ kk : Fin 1024, a (ix2 r kk) * b (ix2 c kk) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r c) ((ValueIdx.contrEquiv1 dot_S1024x1024_S1024x1024_S1024x1024_1_1_0_0_n_n 1024 rfl rfl).symm k) = ix2 r k := funext fun a => Fin.ext (by
    match a with
    | ⟨0, _⟩ => exact lhs_dot_0 _ _
    | ⟨1, _⟩ => exact (lhs_dot_1 _ _).trans hk)
  have er : dot_S1024x1024_S1024x1024_S1024x1024_1_1_0_0_n_n.rhsIdx (ix2 r c) ((ValueIdx.contrEquiv1 dot_S1024x1024_S1024x1024_S1024x1024_1_1_0_0_n_n 1024 rfl rfl).symm k) = ix2 c k := funext fun a => Fin.ext (by
    match a with
    | ⟨0, _⟩ => exact rhs_dot_0 _ _
    | ⟨1, _⟩ => exact (rhs_dot_1 _ _).trans hk)
  rw [el, er]

/-- One step at (r, c): the accumulator's entry plus the products along the shared axis. -/
theorem step_apply (acc : FVec Ideal S1024x1024 .f32) (a b : FVec Ideal S1024x1024 .bf16) (r c : Fin 1024) :
    step (F := Ideal) acc a b (ix2 r c) = acc (ix2 r c) + ∑ kk : Fin 1024, a (ix2 r kk) * b (ix2 c kk) := by
  unfold step k0_pay2
  simp only [shapeCast_self]
  exact congrArg (acc (ix2 r c) + ·) (blockProd_apply a b r c)

/-- The output block at (r, c): the accumulator's entry plus the bias row's entry c. -/
theorem withBias_apply (acc : FVec Ideal S1024x1024 .f32) (b : FVec Ideal S1x1024 .f32) (r c : Fin 1024) :
    withBias (F := Ideal) acc b (ix2 r c) = acc (ix2 r c) + b (ix2 (0 : Fin 1) c) := by
  unfold withBias k0_pay3
  simp only [shapeCast_self]
  refine congrArg (acc (ix2 r c) + ·) ?_
  exact broadcastTo_apply b broadcasts_S1x1024_S1024x1024 (ix2 r c) (ix2 (0 : Fin 1) c) (fun a => by
    match a with
    | ⟨0, _⟩ => show 0 = if (1 : Nat) = 1 then 0 else _; rw [if_pos rfl]
    | ⟨1, _⟩ => show c.val = if (1024 : Nat) = 1 then 0 else c.val; rw [if_neg (by decide)])

/-! ## The arrays the region finds, and the blocks a point reads from them -/

variable (m : (ℓ : Loc nD τ sig) → Buf (Elt Ideal) ℓ)

/-- The left matrix, the right matrix (both [4096, 4096]) and the bias row [1, 4096], as the region finds them. -/
abbrev aArr (c : Dev nD) : SW.Idx → EReal := V m c main_v12
abbrev bArr (c : Dev nD) : SW.Idx → EReal := V m c main_v10
abbrev rowArr (c : Dev nD) : SR.Idx → EReal := V m c main_v13

/-- Their blocks at point n. -/
abbrev aBlk (c : Dev nD) (n : ℕ) (h : n < cfg0.N) : FVec Ideal S1024x1024 .bf16 := iblk m c 0 ⟨n, h⟩
abbrev bBlk (c : Dev nD) (n : ℕ) (h : n < cfg0.N) : FVec Ideal S1024x1024 .bf16 := iblk m c 1 ⟨n, h⟩
abbrev rowBlk (c : Dev nD) (n : ℕ) (h : n < cfg0.N) : FVec Ideal S1x1024 .f32 := iblk m c 2 ⟨n, h⟩

/-- Which block each window is on at point t = (i, j, k): (i, k), (j, k), (0, j) and (i, j) — decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- A block of the left matrix read through its window: row r, position kk of the block of ANY array at point n is
    the array at ((n / 16)·1024 + r, (n % 4)·1024 + kk). -/
theorem read_blk0 (f : SW.Idx → EReal) (n : ℕ) (h : n < cfg0.N) (r kk : Fin 1024) :
    ((cfg0.win 0).blk ⟨n, h⟩).view.read (Elt Ideal) f (ix2 r kk) = at2 f (n / 16 * 1024 + r.val) (n % 4 * 1024 + kk.val) := by
  have e0 : win0_0.index ⟨n, h⟩ (0 : Fin 2) = n / 16 := (idx_facts ⟨n, h⟩).1
  have e1 : win0_0.index ⟨n, h⟩ (1 : Fin 2) = n % 4 := (idx_facts ⟨n, h⟩).2.1
  rw [View.read_apply]
  show f (((cfg0.win 0).blk ⟨n, h⟩).view.emb (ix2 r kk)) = _
  rw [at2_idx f]
  have c0 : ((((cfg0.win 0).blk ⟨n, h⟩).view.emb (ix2 r kk)) 0).val = n / 16 * 1024 + r.val := by
    show win0_0.index ⟨n, h⟩ (0 : Fin 2) * 1024 + 1 * r.val = n / 16 * 1024 + r.val
    rw [e0]; omega
  have c1 : ((((cfg0.win 0).blk ⟨n, h⟩).view.emb (ix2 r kk)) 1).val = n % 4 * 1024 + kk.val := by
    show win0_0.index ⟨n, h⟩ (1 : Fin 2) * 1024 + 1 * kk.val = n % 4 * 1024 + kk.val
    rw [e1]; omega
  rw [c0, c1]

/-- The same for the right matrix: row cc, position kk at point n is the array at
    ((n / 4 % 4)·1024 + cc, (n % 4)·1024 + kk). -/
theorem read_blk1 (f : SW.Idx → EReal) (n : ℕ) (h : n < cfg0.N) (cc kk : Fin 1024) :
    ((cfg0.win 1).blk ⟨n, h⟩).view.read (Elt Ideal) f (ix2 cc kk) = at2 f (n / 4 % 4 * 1024 + cc.val) (n % 4 * 1024 + kk.val) := by
  have e0 : win0_1.index ⟨n, h⟩ (0 : Fin 2) = n / 4 % 4 := (idx_facts ⟨n, h⟩).2.2.1
  have e1 : win0_1.index ⟨n, h⟩ (1 : Fin 2) = n % 4 := (idx_facts ⟨n, h⟩).2.2.2.1
  rw [View.read_apply]
  show f (((cfg0.win 1).blk ⟨n, h⟩).view.emb (ix2 cc kk)) = _
  rw [at2_idx f]
  have c0 : ((((cfg0.win 1).blk ⟨n, h⟩).view.emb (ix2 cc kk)) 0).val = n / 4 % 4 * 1024 + cc.val := by
    show win0_1.index ⟨n, h⟩ (0 : Fin 2) * 1024 + 1 * cc.val = n / 4 % 4 * 1024 + cc.val
    rw [e0]; omega
  have c1 : ((((cfg0.win 1).blk ⟨n, h⟩).view.emb (ix2 cc kk)) 1).val = n % 4 * 1024 + kk.val := by
    show win0_1.index ⟨n, h⟩ (1 : Fin 2) * 1024 + 1 * kk.val = n % 4 * 1024 + kk.val
    rw [e1]; omega
  rw [c0, c1]

/-- And for the bias row: position cc at point n is the row at (0, (n / 4 % 4)·1024 + cc). -/
theorem read_blk2 (f : SR.Idx → EReal) (n : ℕ) (h : n < cfg0.N) (cc : Fin 1024) :
    ((cfg0.win 2).blk ⟨n, h⟩).view.read (Elt Ideal) f (ix2 (0 : Fin 1) cc) = at2 f 0 (n / 4 % 4 * 1024 + cc.val) := by
  have e0 : win0_2.index ⟨n, h⟩ (0 : Fin 2) = 0 := (idx_facts ⟨n, h⟩).2.2.2.2.1
  have e1 : win0_2.index ⟨n, h⟩ (1 : Fin 2) = n / 4 % 4 := (idx_facts ⟨n, h⟩).2.2.2.2.2.1
  rw [View.read_apply]
  show f (((cfg0.win 2).blk ⟨n, h⟩).view.emb (ix2 (0 : Fin 1) cc)) = _
  rw [at2_idx f]
  have c0 : ((((cfg0.win 2).blk ⟨n, h⟩).view.emb (ix2 (0 : Fin 1) cc)) 0).val = 0 := by
    show win0_2.index ⟨n, h⟩ (0 : Fin 2) * 1 + 1 * 0 = 0
    rw [e0]
  have c1 : ((((cfg0.win 2).blk ⟨n, h⟩).view.emb (ix2 (0 : Fin 1) cc)) 1).val = n / 4 % 4 * 1024 + cc.val := by
    show win0_2.index ⟨n, h⟩ (1 : Fin 2) * 1024 + 1 * cc.val = n / 4 % 4 * 1024 + cc.val
    rw [e1]; omega
  rw [c0, c1]

/-- Row r, position kk of the left block at point n is A[(n / 16)·1024 + r, (n % 4)·1024 + kk]. -/
theorem aBlk_apply (c : Dev nD) (n : ℕ) (h : n < cfg0.N) (r kk : Fin 1024) :
    aBlk m c n h (ix2 r kk) = at2 (aArr m c) (n / 16 * 1024 + r.val) (n % 4 * 1024 + kk.val) :=
  read_blk0 (aArr m c) n h r kk

/-- Row cc, position kk of the right block at point n is B[(n / 4 % 4)·1024 + cc, (n % 4)·1024 + kk]. -/
theorem bBlk_apply (c : Dev nD) (n : ℕ) (h : n < cfg0.N) (cc kk : Fin 1024) :
    bBlk m c n h (ix2 cc kk) = at2 (bArr m c) (n / 4 % 4 * 1024 + cc.val) (n % 4 * 1024 + kk.val) :=
  read_blk1 (bArr m c) n h cc kk

/-- Position cc of the bias block at point n is row[0, (n / 4 % 4)·1024 + cc]. -/
theorem rowBlk_apply (c : Dev nD) (n : ℕ) (h : n < cfg0.N) (cc : Fin 1024) :
    rowBlk m c n h (ix2 (0 : Fin 1) cc) = at2 (rowArr m c) 0 (n / 4 % 4 * 1024 + cc.val) :=
  read_blk2 (rowArr m c) n h cc

/-- The products along the shared axis of the two blocks at point n are stretch n % 4 of the contraction. -/
theorem stretch_eq (c : Dev nD) (n : ℕ) (h : n < cfg0.N) (r cc : Fin 1024) :
    ∑ kk : Fin 1024, aBlk m c n h (ix2 r kk) * bBlk m c n h (ix2 cc kk)
      = blockDot (aArr m c) (bArr m c) (n / 16) (n / 4 % 4) (n % 4) r.val cc.val := by
  unfold blockDot
  rw [Finset.sum_range]
  exact Finset.sum_congr rfl fun kk _ => by rw [aBlk_apply, bBlk_apply]

/-! ## What the scratch and the output's buffer hold after each point -/

/-- At a point with k = 0 the scratch is one step over the zero block. -/
theorem scratch_at_first (c : Dev nD) (n : ℕ) (h : n < cfg0.N) (h0 : n % 4 = 0) :
    (outsAt0 m c n h).2 = step (F := Ideal) zeroBlock (aBlk m c n h) (bBlk m c n h) := by
  have h1 : ¬n % 4 = 3 := by omega
  rw [outsAt0_A m c ⟨n, h⟩ h0 h1]
  dsimp only
  exact scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At any other point it is one step over what the point before left. -/
theorem scratch_at_later (c : Dev nD) (n : ℕ) (h : n < cfg0.N) (h0 : ¬n % 4 = 0) :
    (outsAt0 m c n h).2
      = step (F := Ideal) (outsAt0 m c (n - 1) (Nat.lt_of_le_of_lt (Nat.sub_le _ _) h)).2 (aBlk m c n h) (bBlk m c n h) := by
  by_cases h1 : n % 4 = 3
  · rw [outsAt0_C m c ⟨n, h⟩ h0 h1]
    dsimp only
    exact scratch_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) (Nat.lt_of_le_of_lt (Nat.sub_le _ _) h)).2
  · rw [outsAt0_B m c ⟨n, h⟩ h0 h1]
    dsimp only
    exact scratch_mid (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (outsAt0 m c (n - 1) (Nat.lt_of_le_of_lt (Nat.sub_le _ _) h)).2

/-- At a point with k = 3 the output's buffer is the scratch it leaves plus the bias row. -/
theorem out_at_last (c : Dev nD) (n : ℕ) (h : n < cfg0.N) (h3 : n % 4 = 3) :
    (outsAt0 m c n h).1 = withBias (F := Ideal) (outsAt0 m c n h).2 (rowBlk m c n h) := by
  have h0 : ¬n % 4 = 0 := by omega
  rw [outsAt0_C m c ⟨n, h⟩ h0 h3]
  dsimp only
  refine (out_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h3) (iblk m c 0 ⟨n, h⟩) (iblk m c 1 ⟨n, h⟩) (iblk m c 2 ⟨n, h⟩) (outsAt0 m c (n - 1) (Nat.lt_of_le_of_lt (Nat.sub_le _ _) h)).2).trans ?_
  exact congrArg (fun s => withBias (F := Ideal) s (rowBlk m c n h))
    (scratch_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h3) (iblk m c 0 ⟨n, h⟩) (iblk m c 1 ⟨n, h⟩) (iblk m c 2 ⟨n, h⟩) (outsAt0 m c (n - 1) (Nat.lt_of_le_of_lt (Nat.sub_le _ _) h)).2).symm

/-- THE INVARIANT: after point n the scratch holds, entry by entry, the stretches 0 … n % 4 of the contraction for
    row block n / 16 and column block n / 4 % 4. By induction on n. -/
theorem scratch_eq (c : Dev nD) (n : ℕ) : ∀ (h : n < cfg0.N) (r cc : Fin 1024),
    (outsAt0 m c n h).2 (ix2 r cc)
      = ∑ K ∈ Finset.range (n % 4 + 1), blockDot (aArr m c) (bArr m c) (n / 16) (n / 4 % 4) K r.val cc.val := by
  induction n with
  | zero =>
    intro h r cc
    rw [scratch_at_first m c 0 h rfl, step_apply, zeroBlock_apply, zero_add, stretch_eq]
    show _ = ∑ K ∈ Finset.range 1, _
    rw [Finset.sum_range_one]
  | succ k ih =>
    intro h r cc
    by_cases h0 : (k + 1) % 4 = 0
    · rw [scratch_at_first m c (k + 1) h h0, step_apply, zeroBlock_apply, zero_add, stretch_eq, h0, Nat.zero_add,
        Finset.sum_range_one]
    · have hk : k < cfg0.N := Nat.lt_of_succ_lt h
      have e1 : (k + 1) / 16 = k / 16 := by omega
      have e2 : (k + 1) / 4 % 4 = k / 4 % 4 := by omega
      have e3 : (k + 1) % 4 = k % 4 + 1 := by omega
      rw [scratch_at_later m c (k + 1) h h0, step_apply, stretch_eq]
      rw [show (outsAt0 m c (k + 1 - 1) (Nat.lt_of_le_of_lt (Nat.sub_le _ _) h)).2 (ix2 r cc) = (outsAt0 m c k hk).2 (ix2 r cc) from rfl,
        ih hk r cc, e1, e2, e3]
      exact (Finset.sum_range_succ _ _).symm

/-- At a point with k = 3 the output's buffer holds the finished entries of A·Bᵀ plus the row. -/
theorem out_eq (c : Dev nD) (n : ℕ) (h : n < cfg0.N) (h3 : n % 4 = 3) (r cc : Fin 1024) :
    (outsAt0 m c n h).1 (ix2 r cc)
      = mat2 (aArr m c) (bArr m c) (rowArr m c) (n / 16 * 1024 + r.val) (n / 4 % 4 * 1024 + cc.val) := by
  rw [out_at_last m c n h h3, withBias_apply, scratch_eq m c n h r cc, rowBlk_apply, h3, mat2_blocks]

end Cert.KernelIdeal.Acc

end
-- ==== Proof.KernelLinear.lean ====
/-
  The kernel program's result, at the ideal instance.
  Every point with k = 3 writes its finished [1024, 1024] block of A·Bᵀ + row back at block (i, j); these sixteen
  blocks tile the [4096, 4096] array, so after the region it holds A·Bᵀ + row everywhere. Before the region the host
  made A from the activations (their two leading axes merged; the narrowing to bf16 is the identity on extended reals),
  B from the dequantized weights (the same expression as the reference's, never opened) and the row from the bias;
  after it the host splits the rows back into (b, s). Entry (b, s, o) of the result is therefore
  (Σ_q x[b,s,q] · w[o,q]) + bias[o]: the linear layer.
-/
import proofs.«137067_j80504866996441_1_alg».proof.Proof.Accum
import proofs.«137067_j80504866996441_1_alg».proof.Proof.Gen.ReferenceIdeal.Read
import Idealize.ShloMosaic.Lib.Pipeline.Value
import Idealize.ShloMosaic.Lib.StableHlo.Run

noncomputable section

open scoped BigOperators

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.BlockedLinear

variable (m : (ℓ : Loc nD τ sig) → Buf (Elt Ideal) ℓ) (ρ : Dev nD → PrngReg)

/-! ## The write-backs -/

/-- The output block of ANY array at point n, read through its window: entry (r, cc) is the array at
    ((n / 16)·1024 + r, (n / 4 % 4)·1024 + cc). -/
theorem read_blk3 (f : SW.Idx → EReal) (n : ℕ) (h : n < cfg0.N) (r cc : Fin 1024) :
    ((cfg0.win 3).blk ⟨n, h⟩).view.read (Elt Ideal) f (ix2 r cc) = at2 f (n / 16 * 1024 + r.val) (n / 4 % 4 * 1024 + cc.val) := by
  have e0 : win0_3.index ⟨n, h⟩ (0 : Fin 2) = n / 16 := (idx_facts ⟨n, h⟩).2.2.2.2.2.2.1
  have e1 : win0_3.index ⟨n, h⟩ (1 : Fin 2) = n / 4 % 4 := (idx_facts ⟨n, h⟩).2.2.2.2.2.2.2
  rw [View.read_apply]
  show f (((cfg0.win 3).blk ⟨n, h⟩).view.emb (ix2 r cc)) = _
  rw [at2_idx f]
  have c0 : ((((cfg0.win 3).blk ⟨n, h⟩).view.emb (ix2 r cc)) 0).val = n / 16 * 1024 + r.val := by
    show win0_3.index ⟨n, h⟩ (0 : Fin 2) * 1024 + 1 * r.val = n / 16 * 1024 + r.val
    rw [e0]; omega
  have c1 : ((((cfg0.win 3).blk ⟨n, h⟩).view.emb (ix2 r cc)) 1).val = n / 4 % 4 * 1024 + cc.val := by
    show win0_3.index ⟨n, h⟩ (1 : Fin 2) * 1024 + 1 * cc.val = n / 4 % 4 * 1024 + cc.val
    rw [e1]; omega
  rw [c0, c1]

/-- What a point with k = 3 writes back is its block of `A·Bᵀ + row`. -/
theorem flushed_eq (c : Dev nD) (t : Fin cfg0.N) (hf : (cfg0.win 3).flush t = true) :
    (dats m 0 c).flushed 3 t
      = ((cfg0.win 3).blk t).view.read (Elt Ideal) (mat (aArr m c) (bArr m c) (rowArr m c)) := by
  obtain ⟨n, h⟩ := t
  have h3 : n % 4 = 3 := (flush0_3 ⟨n, h⟩).mp hf
  have hN : n < 64 := lt_of_lt_of_eq h (show cfg0.N = 64 from N_0)
  show (cfg0.win 3).cut (grid0.coords ⟨n, h⟩) ((dats m 0 c).after 3 ⟨n, h⟩) = _
  rw [after0_3]
  funext j
  obtain ⟨r, cc, rfl⟩ : ∃ (r cc : Fin 1024), j = ix2 r cc := ⟨j 0, j 1, eq_ix2 j⟩
  rw [read_blk3 (mat (aArr m c) (bArr m c) (rowArr m c)) n h r cc,
    at2_mat _ _ _ _ _ (by have := r.isLt; omega) (by have := cc.isLt; omega)]
  exact out_eq m c n h h3 r cc

/-- An index of the array is in point t's output block iff each coordinate is in the block's range. -/
theorem mem_blk3 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v14).slice (win0_3.rect t)).set ↔ _
  rw [View.set_slice_whole, Rect.mem_set_unit]
  exact Iff.rfl

/-- Every entry of the array is in the block some point with k = 3 writes back: point
    (i₀ / 1024)·16 + (i₁ / 1024)·4 + 3. -/
theorem covered (i : S4096x4096.Idx) :
    ∃ t : Fin cfg0.N, (cfg0.win 3).flush t = true ∧ i ∈ ((cfg0.win 3).blk t).view.set := by
  have hN : cfg0.N = 64 := N_0
  have h0 : (i 0).val < 4096 := (i 0).isLt
  have h1 : (i 1).val < 4096 := (i 1).isLt
  obtain ⟨n, hn⟩ : ∃ n : ℕ, n = (i 0).val / 1024 * 16 + (i 1).val / 1024 * 4 + 3 := ⟨_, rfl⟩
  have hlt : n < cfg0.N := by rw [hN]; omega
  have e0 : win0_3.index ⟨n, hlt⟩ (0 : Fin 2) = n / 16 := (idx_facts ⟨n, hlt⟩).2.2.2.2.2.2.1
  have e1 : win0_3.index ⟨n, hlt⟩ (1 : Fin 2) = n / 4 % 4 := (idx_facts ⟨n, hlt⟩).2.2.2.2.2.2.2
  refine ⟨⟨n, hlt⟩, (flush0_3 ⟨n, hlt⟩).mpr (by show n % 4 = 3; omega), ?_⟩
  rw [mem_blk3]
  intro a
  match a with
  | ⟨0, _⟩ =>
    show win0_3.index ⟨n, hlt⟩ (0 : Fin 2) * 1024 ≤ (i 0).val ∧ (i 0).val < win0_3.index ⟨n, hlt⟩ (0 : Fin 2) * 1024 + 1024
    rw [e0]; omega
  | ⟨1, _⟩ =>
    show win0_3.index ⟨n, hlt⟩ (1 : Fin 2) * 1024 ≤ (i 1).val ∧ (i 1).val < win0_3.index ⟨n, hlt⟩ (1 : Fin 2) * 1024 + 1024
    rw [e1]; omega

/-- So after the region the output array holds `A·Bᵀ + row`. -/
theorem final (c : Dev nD) : (dats m 0 c).arrAt 3 cfg0.N = mat (aArr m c) (bArr m c) (rowArr m c) :=
  (dats m 0 c).arrAt_eq_of_cover 3 (mat (aArr m c) (bArr m c) (rowArr m c)) (fun t hf => flushed_eq m c t hf) covered

/-! ## The host's glue before the region -/

/-- The left matrix is the activations with their two leading axes merged (narrowed to bf16: the identity here). -/
theorem aArr_eq (c : Dev nD) :
    aArr m c = truncf (F := Ideal) (φ := .f32) .bf16
      (shapeCast S4096x4096 (m ((c : Thread nD τ).loc main_arg0)) shapeCasts_S2x2048x4096_S4096x4096) bitsLt_bf16_f32 := by
  show StableHlo.after hostOps0 (fun b => m (c, b)) (Proc.devRef .tc main_v12) = _
  after_results
  rfl

/-- The right matrix is the dequantized weights — the reference's own expression of the codes, the codebook and the
    scales, carried unopened (narrowed to bf16: the identity here). -/
theorem bArr_eq (c : Dev nD) :
    bArr m c = truncf (F := Ideal) (φ := .f32) (s := S4096x4096) .bf16
      (Cert.ReferenceIdeal.Read.val_main_v9 (F := Ideal) (m ((c : Thread nD τ).loc main_arg1))
        (m ((c : Thread nD τ).loc main_arg2)) (m ((c : Thread nD τ).loc main_arg3))) bitsLt_bf16_f32 := by
  show StableHlo.after hostOps0 (fun b => m (c, b)) (Proc.devRef .tc main_v10) = _
  after_results
  rfl

/-- The row is the bias as a one-row matrix. -/
theorem rowArr_eq (c : Dev nD) :
    rowArr m c = shapeCast S1x4096 (m ((c : Thread nD τ).loc main_arg4)) shapeCasts_S4096_S1x4096 := by
  show StableHlo.after hostOps0 (fun b => m (c, b)) (Proc.devRef .tc main_v13) = _
  after_results
  rfl

/-- Row b·2048 + s of the left matrix is row (b, s) of the activations. -/
theorem aArr_apply (c : Dev nD) (i : Fin 2) (s : Fin 2048) (q : Fin 4096) (h : i.val * 2048 + s.val < 4096) :
    aArr m c (ix2 ⟨i.val * 2048 + s.val, h⟩ q) = m ((c : Thread nD τ).loc main_arg0) (ix3 i s q) := by
  rw [aArr_eq]
  show shapeCast S4096x4096 (m ((c : Thread nD τ).loc main_arg0)) shapeCasts_S2x2048x4096_S4096x4096 (ix2 ⟨i.val * 2048 + s.val, h⟩ q) = _
  exact shapeCast_apply (s := S2x2048x4096) (m ((c : Thread nD τ).loc main_arg0)) shapeCasts_S2x2048x4096_S4096x4096 (ix2 ⟨i.val * 2048 + s.val, h⟩ q) (ix3 i s q)
    (by show (S2x2048x4096.rowMajor (ix3 i s q)).val = (S4096x4096.rowMajor (ix2 ⟨i.val * 2048 + s.val, h⟩ q)).val
        rewrite [Shape.rowMajor_val_three, Shape.rowMajor_val_two]; rfl)

/-- The right matrix is the dequantized weights, entry by entry. -/
theorem bArr_apply (c : Dev nD) (o q : Fin 4096) :
    bArr m c (ix2 o q) = Cert.ReferenceIdeal.Read.val_main_v9 (F := Ideal) (m ((c : Thread nD τ).loc main_arg1))
      (m ((c : Thread nD τ).loc main_arg2)) (m ((c : Thread nD τ).loc main_arg3)) (ix2 o q) := by
  rw [bArr_eq]
  exact truncf_apply _ _ _

/-- The row's entry o is the bias's. -/
theorem rowArr_apply (c : Dev nD) (o : Fin 4096) :
    rowArr m c (ix2 (0 : Fin 1) o) = m ((c : Thread nD τ).loc main_arg4) (ix1 o) := by
  rw [rowArr_eq]
  exact shapeCast_apply (s := S4096) (m ((c : Thread nD τ).loc main_arg4)) shapeCasts_S4096_S1x4096 (ix2 (0 : Fin 1) o) (ix1 o)
    (by show (S4096.rowMajor (ix1 o)).val = (S1x4096.rowMajor (ix2 (0 : Fin 1) o)).val
        rewrite [Shape.rowMajor_val_one, Shape.rowMajor_val_two]; show o.val = 0 * 4096 + o.val; omega)

/-! ## The result -/

/-- The linear layer of this launch's arguments. -/
abbrev result (c : Dev nD) : SX.Idx → EReal :=
  lin (m ((c : Thread nD τ).loc main_arg0))
    (Cert.ReferenceIdeal.Read.val_main_v9 (F := Ideal) (m ((c : Thread nD τ).loc main_arg1))
      (m ((c : Thread nD τ).loc main_arg2)) (m ((c : Thread nD τ).loc main_arg3)))
    (m ((c : Thread nD τ).loc main_arg4))

/-- After the host has split the rows of the output array back into (b, s), the result is the linear layer. -/
theorem result_eq (c : Dev nD) :
    Pipeline.afterTail₀ cfgs (dats m) 0 (V0 m) [hostOps1] c main_v15 = result m c := by
  have hw : Pipeline.withArrays (cfgs 0).spec c (V0 m c) (fun w => (dats m 0 c).arrAt w (cfgs 0).N) (Proc.devRef .tc main_v14)
      = mat (aArr m c) (bArr m c) (rowArr m c) :=
    (Pipeline.withArrays_arr spec0 launch0.win.arr_inj c _ _ 3).trans (final m c)
  unfold Pipeline.afterTail₀
  show StableHlo.after hostOps1 _ (Proc.devRef .tc main_v15) = _
  after_results
  funext p
  obtain ⟨i, s, o, rfl⟩ : ∃ (i : Fin 2) (s : Fin 2048) (o : Fin 4096), p = ix3 i s o := ⟨p 0, p 1, p 2, eq_ix3 p⟩
  have hR : i.val * 2048 + s.val < 4096 := by have := i.isLt; have := s.isLt; omega
  show shapeCast S2x2048x4096 (Pipeline.withArrays (cfgs 0).spec c (V0 m c) (fun w => (dats m 0 c).arrAt w (cfgs 0).N) (Proc.devRef .tc main_v14))
    shapeCasts_S4096x4096_S2x2048x4096 (ix3 i s o) = _
  rw [hw]
  refine (shapeCast_apply (s := S4096x4096) (mat (aArr m c) (bArr m c) (rowArr m c)) shapeCasts_S4096x4096_S2x2048x4096 (ix3 i s o) (ix2 ⟨i.val * 2048 + s.val, hR⟩ o)
    (by show (S4096x4096.rowMajor (ix2 ⟨i.val * 2048 + s.val, hR⟩ o)).val = (S2x2048x4096.rowMajor (ix3 i s o)).val
        rewrite [Shape.rowMajor_val_three, Shape.rowMajor_val_two]; rfl)).trans ?_
  show mat2 (aArr m c) (bArr m c) (rowArr m c) (i.val * 2048 + s.val) o.val = _
  exact mat2_eq_lin _ _ _ _ _ _ (aArr_apply m c) (bArr_apply m c) (rowArr_apply m c) i s o

/-! ## The run -/

/-- Every weakly fair execution of the kernel program terminates with its result at the linear layer of its
    arguments, and the arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.lean ====
/-
  The proof of `Cert.Claim`.

  The kernel computes y = x·Wᵀ + bias for W = codebook[codes]·scales as a [4096, 4096] matrix product cut into
  [1024, 1024] blocks: for each output block (i, j) it adds the four stretches k = 0 … 3 of the contraction into a
  scratch accumulator (zeroed at k = 0) and, at k = 3, writes the accumulator plus the bias row back. The reference
  computes the same entries with one contraction of length 4096. Over the extended reals the two agree because
  addition is commutative and associative: a sum of 4096 terms is the sum of its four stretches of 1024
  (Proof/Linear.lean), whatever the terms — the inputs' finiteness is not used. The dequantized weights are the
  same expression in both programs and are never opened.

  The modules: Proof/Linear.lean (the linear layer and the four-stretch split), Proof/RefLinear.lean (the reference is
  the linear layer), Proof/Pieces.lean (what one grid point leaves in the scratch and in the output block),
  Proof/Accum.lean (the scratch after each point, by induction on the point), Proof/KernelLinear.lean (the
  write-backs tile the output; the host's reshapes around the region; the kernel program's result is the linear layer).
-/
import proofs.«137067_j80504866996441_1_alg».proof.Defs
import proofs.«137067_j80504866996441_1_alg».proof.Proof.Gen.Kernel
import proofs.«137067_j80504866996441_1_alg».proof.Proof.Gen.Kernel.Skeleton
import proofs.«137067_j80504866996441_1_alg».proof.Proof.Gen.Kernel.Launch
import proofs.«137067_j80504866996441_1_alg».proof.Proof.Gen.Kernel.Points
import proofs.«137067_j80504866996441_1_alg».proof.Proof.Gen.Kernel.Frame
import proofs.«137067_j80504866996441_1_alg».proof.Proof.Gen.KernelIdeal
import proofs.«137067_j80504866996441_1_alg».proof.Proof.Gen.KernelIdeal.Skeleton
import proofs.«137067_j80504866996441_1_alg».proof.Proof.Gen.KernelIdeal.Launch
import proofs.«137067_j80504866996441_1_alg».proof.Proof.Gen.KernelIdeal.Points
import proofs.«137067_j80504866996441_1_alg».proof.Proof.Gen.KernelIdeal.Frame
import proofs.«137067_j80504866996441_1_alg».proof.Proof.Gen.ReferenceIdeal
import proofs.«137067_j80504866996441_1_alg».proof.Proof.Gen.ReferenceIdeal.Run
import proofs.«137067_j80504866996441_1_alg».proof.Proof.Gen.ReferenceIdeal.Read
import proofs.«137067_j80504866996441_1_alg».proof.Proof.Gen.Pre_finite_inputs
import proofs.«137067_j80504866996441_1_alg».proof.Proof.RefLinear
import proofs.«137067_j80504866996441_1_alg».proof.Proof.KernelLinear
import Idealize.ShloMosaic.Adequacy
import Idealize.ShloMosaic.Init

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end at the linear layer of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
